-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 28
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x4096, .f32⟩
  | .hbm, ⟨20, _⟩ => ⟨S1024x4096, .bf16⟩
  | .hbm, ⟨21, _⟩ => ⟨S1024x4096, .f32⟩
  | .hbm, ⟨22, _⟩ => ⟨S1024x4096, .bf16⟩
  | .hbm, ⟨23, _⟩ => ⟨S4096, .f32⟩
  | .hbm, ⟨24, _⟩ => ⟨S4096x1024, .bf16⟩
  | .hbm, ⟨25, _⟩ => ⟨S4096x1024, .bf16⟩
  | .hbm, ⟨26, _⟩ => ⟨S4096x1024, .f32⟩
  | .hbm, ⟨27, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x1024_S1024x1024_0_0 : S2048x1024.Slices ![0, 0] S1024x1024
  slices_S2048x1024_S1024x1024_1024_0 : S2048x1024.Slices ![1024, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v13) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S2048x4096, .f32⟩
  | .hbm, ⟨13, _⟩ => ⟨S4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KernelEntry.lean ====
/-
  The program up to its one kernel launch.

  Before the launch the program only rearranges its arguments: each gate's [2048, 1024] weight matrix is cut into
  its upper and lower 1024 rows, the four upper halves are joined side by side into a [1024, 4096] matrix and the
  four lower halves into another, the four biases are joined into one vector of 4096, and the input and the hidden
  state (and the two joined matrices) change float format. None of these fifteen operations writes an argument, so
  the launch finds every argument as it was given; `V` names what it finds in every buffer, and `iblk` the block of
  a window's array that a grid point works on.
-/
import proofs.«158399_j47596827574335_1_alg».proof.Proof.Gen.Kernel.Launch
import proofs.«158399_j47596827574335_1_alg».proof.Proof.Gen.Kernel.Skeleton
import proofs.«158399_j47596827574335_1_alg».proof.Proof.Gen.Kernel.Points
import Idealize.ShloMosaic.Lib.Pipeline.FrameBody

set_option maxRecDepth 16384

noncomputable section

namespace Cert.Kernel.Entry

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the launch is reached: the launch memory after the fifteen rearranging operations. -/
abbrev V (c : Dev nD) (b : Ref sig .tc) : Buf (Elt F) ((c : Thread nD τ).loc b) :=
  StableHlo.after (List.flatten [hostOps0]) (fun b => m (c, b)) b

/-- None of them allocates a buffer. -/
theorem hostOps0_fresh : (hostOps0 : List (HloOp τ sig (Elt F))).Forall fun op => op.fresh = ∅ := by
  simp only [List.Forall]; repeat' constructor

/-- The program is those operations and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Entry

end
-- ==== Proof.KernelFrame.lean ====
/-
  The frame of the program: it runs to the end, faults nowhere, and leaves its arguments as they were.

  The kernel body at a grid point loads its six input blocks whole (a block of 256 rows of the input, of the hidden
  state and of the cell state; the two joined weight matrices and the joined bias whole), loads and then overwrites
  its two output blocks whole, and touches nothing else. So after the body each input's buffer still holds its
  block and each output's buffer holds the one value stored into it, a function of the six loaded blocks. The
  pipeline around the body fetches a block before the body wherever its index moved and writes the two outputs'
  blocks back after it; the pipeline's launch theorem turns the body's triple at every point into the run of the
  whole program, every array that no window writes back keeping its contents.
-/
import proofs.«158399_j47596827574335_1_alg».proof.Proof.KernelEntry
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input's buffer holds its block at every point -/

/- Whether the pipeline fetched the block at this point or not (the weights and the bias are fetched once, at the
   first point: their block index never moves), the buffer the body is handed holds the block of the array. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## What the body stores -/

/-- The whole of a [256, 1024] block, of a [1024, 4096] matrix, of the bias vector. -/
abbrev rBlk : Rect S256x1024 := Rect.unit (s := S256x1024) ![0, 0] S256x1024.size inb_S256x1024_S256x1024_0_0
abbrev rMat : Rect S1024x4096 := Rect.unit (s := S1024x4096) ![0, 0] S1024x4096.size inb_S1024x4096_S1024x4096_0_0
abbrev rBias : Rect S4096 := Rect.unit (s := S4096) ![0] S4096.size inb_S4096_S4096_0

/-- The new hidden state's buffer after the body: its one whole store, of the six loaded blocks. -/
def hOut (x0 h0 : Vec F S256x1024 .bf16) (c0 : Vec F S256x1024 .f32) (wx wh : Vec F S1024x4096 .bf16) (b : Vec F S4096 .f32) : Vec F S256x1024 .f32 :=
  View.canon [⟨rBlk, k0_pay3 (View.ld x0 rBlk) (View.ld h0 rBlk) (View.ld c0 rBlk) (View.ld wx rMat) (View.ld wh rMat) (View.ld b rBias)⟩]

/-- The new cell state's buffer after the body. -/
def cOut (x0 h0 : Vec F S256x1024 .bf16) (c0 : Vec F S256x1024 .f32) (wx wh : Vec F S1024x4096 .bf16) (b : Vec F S4096 .f32) : Vec F S256x1024 .f32 :=
  View.canon [⟨rBlk, k0_pay2 (View.ld x0 rBlk) (View.ld h0 rBlk) (View.ld c0 rBlk) (View.ld wx rMat) (View.ld wh rMat) (View.ld b rBias)⟩]

/-- One whole store covers the buffer. -/
theorem cover_blk (p0 : Vec F S256x1024 .f32) (y : S256x1024.Idx) :
    ∃ pc ∈ ([⟨rBlk, p0⟩] : List (View.Piece (Elt F) S256x1024 .f32)), y ∈ pc.1.set :=
  View.cover_of_tiled [⟨rBlk, p0⟩] S256x1024.size (by rfl) y

/-! ## The body's triple -/

set_option maxHeartbeats 1000000 in
/-- The body on whole buffers, the six inputs' at contents it reads and the two outputs' at anything, runs to a
    state with the inputs' as they were and the outputs' at `hOut` and `cOut` of them. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S256x1024 .f32) (harg7 : arg7.IsWhole) (arg8 : Memref sig .tc .vmem S256x1024 .f32) (harg8 : arg8.IsWhole)
    (x0 h0 : Vec F S256x1024 .bf16) (c0 : Vec F S256x1024 .f32) (wx wh : Vec F S1024x4096 .bf16) (b : Vec F S4096 .f32) (K : PUnit → sProp 𝕄) :
    iprop(owns (c : Thread nD τ) arg1 fullShare x0 ∗ owns (c : Thread nD τ) arg2 fullShare h0 ∗ owns (c : Thread nD τ) arg3 fullShare c0 ∗ owns (c : Thread nD τ) arg4 fullShare wx ∗ owns (c : Thread nD τ) arg5 fullShare wh ∗ owns (c : Thread nD τ) arg6 fullShare b ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare h0 ∗ owns (c : Thread nD τ) arg3 fullShare c0 ∗ owns (c : Thread nD τ) arg4 fullShare wx ∗ owns (c : Thread nD τ) arg5 fullShare wh ∗ owns (c : Thread nD τ) arg6 fullShare b ∗ owns (c : Thread nD τ) arg7 fullShare (hOut x0 h0 c0 wx wh b) ∗ owns (c : Thread nD τ) arg8 fullShare (cOut x0 h0 c0 wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_blk _)
  iexists _; isplitr
  swap; · iexact H8
  ipureintro
  exact View.read_writes_eq_canon _ _ _ (cover_blk _)

/-! ## The pipeline's proof data -/

/-- On core `c`: the arrays as the launch finds them; after the body at point `t` each input's buffer at its block,
    the hidden-state output's at `hOut` and the cell-state output's at `cOut` of the six input blocks; the rest of
    the core's scoped memory passes through untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut (iblk m c 0 t) (iblk m c 1 t) (iblk m c 2 t) (iblk m c 3 t) (iblk m c 4 t) (iblk m c 5 t)
    | ⟨7, _⟩ => cOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cOut (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t := found0_of m (dats m 0 c) (A_eq m c 0) (after0 m c) t d
theorem found1 (c : Dev nD) (t : Fin cfg0.N) (d) : (dats m 0 c).before 1 t d = iblk m c 1 t := found1_of m (dats m 0 c) (A_eq m c 1) (after1 m c) t d
theorem found2 (c : Dev nD) (t : Fin cfg0.N) (d) : (dats m 0 c).before 2 t d = iblk m c 2 t := found2_of m (dats m 0 c) (A_eq m c 2) (after2 m c) t d
theorem found3 (c : Dev nD) (t : Fin cfg0.N) (d) : (dats m 0 c).before 3 t d = iblk m c 3 t := found3_of m (dats m 0 c) (A_eq m c 3) (after3 m c) t d
theorem found4 (c : Dev nD) (t : Fin cfg0.N) (d) : (dats m 0 c).before 4 t d = iblk m c 4 t := found4_of m (dats m 0 c) (A_eq m c 4) (after4 m c) t d
theorem found5 (c : Dev nD) (t : Fin cfg0.N) (d) : (dats m 0 c).before 5 t d = iblk m c 5 t := found5_of m (dats m 0 c) (A_eq m c 5) (after5 m c) t d

/-! ## The body obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline holds what the library computes from the proof data and every other unscoped buffer
    what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frame

end
-- ==== Proof.KernelIdealEntry.lean ====
/-
  The program up to its one kernel launch.

  Before the launch the program only rearranges its arguments: each gate's [2048, 1024] weight matrix is cut into
  its upper and lower 1024 rows, the four upper halves are joined side by side into a [1024, 4096] matrix and the
  four lower halves into another, the four biases are joined into one vector of 4096, and the input and the hidden
  state (and the two joined matrices) change float format. None of these fifteen operations writes an argument, so
  the launch finds every argument as it was given; `V` names what it finds in every buffer, and `iblk` the block of
  a window's array that a grid point works on.
-/
import proofs.«158399_j47596827574335_1_alg».proof.Proof.Gen.KernelIdeal.Launch
import proofs.«158399_j47596827574335_1_alg».proof.Proof.Gen.KernelIdeal.Skeleton
import proofs.«158399_j47596827574335_1_alg».proof.Proof.Gen.KernelIdeal.Points
import Idealize.ShloMosaic.Lib.Pipeline.FrameBody

set_option maxRecDepth 16384

noncomputable section

namespace Cert.KernelIdeal.Entry

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the launch is reached: the launch memory after the fifteen rearranging operations. -/
abbrev V (c : Dev nD) (b : Ref sig .tc) : Buf (Elt F) ((c : Thread nD τ).loc b) :=
  StableHlo.after (List.flatten [hostOps0]) (fun b => m (c, b)) b

/-- None of them allocates a buffer. -/
theorem hostOps0_fresh : (hostOps0 : List (HloOp τ sig (Elt F))).Forall fun op => op.fresh = ∅ := by
  simp only [List.Forall]; repeat' constructor

/-- The program is those operations and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Entry

end
-- ==== Proof.KernelIdealFrame.lean ====
/-
  The frame of the program: it runs to the end, faults nowhere, and leaves its arguments as they were.

  The kernel body at a grid point loads its six input blocks whole (a block of 256 rows of the input, of the hidden
  state and of the cell state; the two joined weight matrices and the joined bias whole), loads and then overwrites
  its two output blocks whole, and touches nothing else. So after the body each input's buffer still holds its
  block and each output's buffer holds the one value stored into it, a function of the six loaded blocks. The
  pipeline around the body fetches a block before the body wherever its index moved and writes the two outputs'
  blocks back after it; the pipeline's launch theorem turns the body's triple at every point into the run of the
  whole program, every array that no window writes back keeping its contents.
-/
import proofs.«158399_j47596827574335_1_alg».proof.Proof.KernelIdealEntry
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input's buffer holds its block at every point -/

/- Whether the pipeline fetched the block at this point or not (the weights and the bias are fetched once, at the
   first point: their block index never moves), the buffer the body is handed holds the block of the array. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## What the body stores -/

/-- The whole of a [256, 1024] block, of a [1024, 4096] matrix, of the bias vector. -/
abbrev rBlk : Rect S256x1024 := Rect.unit (s := S256x1024) ![0, 0] S256x1024.size inb_S256x1024_S256x1024_0_0
abbrev rMat : Rect S1024x4096 := Rect.unit (s := S1024x4096) ![0, 0] S1024x4096.size inb_S1024x4096_S1024x4096_0_0
abbrev rBias : Rect S4096 := Rect.unit (s := S4096) ![0] S4096.size inb_S4096_S4096_0

/-- The new hidden state's buffer after the body: its one whole store, of the six loaded blocks. -/
def hOut (x0 h0 : Vec F S256x1024 .bf16) (c0 : Vec F S256x1024 .f32) (wx wh : Vec F S1024x4096 .bf16) (b : Vec F S4096 .f32) : Vec F S256x1024 .f32 :=
  View.canon [⟨rBlk, k0_pay3 (View.ld x0 rBlk) (View.ld h0 rBlk) (View.ld c0 rBlk) (View.ld wx rMat) (View.ld wh rMat) (View.ld b rBias)⟩]

/-- The new cell state's buffer after the body. -/
def cOut (x0 h0 : Vec F S256x1024 .bf16) (c0 : Vec F S256x1024 .f32) (wx wh : Vec F S1024x4096 .bf16) (b : Vec F S4096 .f32) : Vec F S256x1024 .f32 :=
  View.canon [⟨rBlk, k0_pay2 (View.ld x0 rBlk) (View.ld h0 rBlk) (View.ld c0 rBlk) (View.ld wx rMat) (View.ld wh rMat) (View.ld b rBias)⟩]

/-- One whole store covers the buffer. -/
theorem cover_blk (p0 : Vec F S256x1024 .f32) (y : S256x1024.Idx) :
    ∃ pc ∈ ([⟨rBlk, p0⟩] : List (View.Piece (Elt F) S256x1024 .f32)), y ∈ pc.1.set :=
  View.cover_of_tiled [⟨rBlk, p0⟩] S256x1024.size (by rfl) y

/-! ## The body's triple -/

set_option maxHeartbeats 1000000 in
/-- The body on whole buffers, the six inputs' at contents it reads and the two outputs' at anything, runs to a
    state with the inputs' as they were and the outputs' at `hOut` and `cOut` of them. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S256x1024 .f32) (harg7 : arg7.IsWhole) (arg8 : Memref sig .tc .vmem S256x1024 .f32) (harg8 : arg8.IsWhole)
    (x0 h0 : Vec F S256x1024 .bf16) (c0 : Vec F S256x1024 .f32) (wx wh : Vec F S1024x4096 .bf16) (b : Vec F S4096 .f32) (K : PUnit → sProp 𝕄) :
    iprop(owns (c : Thread nD τ) arg1 fullShare x0 ∗ owns (c : Thread nD τ) arg2 fullShare h0 ∗ owns (c : Thread nD τ) arg3 fullShare c0 ∗ owns (c : Thread nD τ) arg4 fullShare wx ∗ owns (c : Thread nD τ) arg5 fullShare wh ∗ owns (c : Thread nD τ) arg6 fullShare b ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare h0 ∗ owns (c : Thread nD τ) arg3 fullShare c0 ∗ owns (c : Thread nD τ) arg4 fullShare wx ∗ owns (c : Thread nD τ) arg5 fullShare wh ∗ owns (c : Thread nD τ) arg6 fullShare b ∗ owns (c : Thread nD τ) arg7 fullShare (hOut x0 h0 c0 wx wh b) ∗ owns (c : Thread nD τ) arg8 fullShare (cOut x0 h0 c0 wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_blk _)
  iexists _; isplitr
  swap; · iexact H8
  ipureintro
  exact View.read_writes_eq_canon _ _ _ (cover_blk _)

/-! ## The pipeline's proof data -/

/-- On core `c`: the arrays as the launch finds them; after the body at point `t` each input's buffer at its block,
    the hidden-state output's at `hOut` and the cell-state output's at `cOut` of the six input blocks; the rest of
    the core's scoped memory passes through untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut (iblk m c 0 t) (iblk m c 1 t) (iblk m c 2 t) (iblk m c 3 t) (iblk m c 4 t) (iblk m c 5 t)
    | ⟨7, _⟩ => cOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cOut (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t := found0_of m (dats m 0 c) (A_eq m c 0) (after0 m c) t d
theorem found1 (c : Dev nD) (t : Fin cfg0.N) (d) : (dats m 0 c).before 1 t d = iblk m c 1 t := found1_of m (dats m 0 c) (A_eq m c 1) (after1 m c) t d
theorem found2 (c : Dev nD) (t : Fin cfg0.N) (d) : (dats m 0 c).before 2 t d = iblk m c 2 t := found2_of m (dats m 0 c) (A_eq m c 2) (after2 m c) t d
theorem found3 (c : Dev nD) (t : Fin cfg0.N) (d) : (dats m 0 c).before 3 t d = iblk m c 3 t := found3_of m (dats m 0 c) (A_eq m c 3) (after3 m c) t d
theorem found4 (c : Dev nD) (t : Fin cfg0.N) (d) : (dats m 0 c).before 4 t d = iblk m c 4 t := found4_of m (dats m 0 c) (A_eq m c 4) (after4 m c) t d
theorem found5 (c : Dev nD) (t : Fin cfg0.N) (d) : (dats m 0 c).before 5 t d = iblk m c 5 t := found5_of m (dats m 0 c) (A_eq m c 5) (after5 m c) t d

/-! ## The body obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline holds what the library computes from the proof data and every other unscoped buffer
    what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frame

end
-- ==== Proof.LstmSpec.lean ====
/-
  One step of an LSTM cell, as functions on the extended reals.

  A gate's pre-activation at batch row p and hidden unit q is the input row against the upper 1024 rows of the
  gate's weight matrix, plus the previous hidden row against its lower 1024 rows, plus the gate's bias:
      gate x h W b p q = ∑ k < 1024, x[p, k] · W[k, q]  +  ∑ k < 1024, h[p, k] · W[1024 + k, q]  +  b[q].
  With f, i, g, o the four gates' pre-activations, σ the logistic function,
      c' = σ f · c + σ i · tanh g,        h' = σ o · tanh c'.

  The same numbers arise from ONE product of the joined row [x | h] (2048 entries) with the whole weight matrix:
  a sum over 2048 positions is the sum over the first 1024 plus the sum over the last 1024 (addition of extended
  reals is commutative and associative; no factor is moved across a sum, so nothing here asks for finiteness).
-/
import Idealize.ShloMosaic.Lib.ValueIdx
import Idealize.ShloMosaic.PureOps.Ideal

namespace Cert.Lstm

open Idealize.ShloMosaic Idealize.ShloMosaic.ValueIdx

/-- A gate's pre-activation: the input row against the weight's upper half, the hidden row against its lower half,
    and the bias. `B` is the number of batch rows of the arrays it is read from (a block's, or the whole batch's). -/
noncomputable def gate {B : ℕ} (x h : (⟨2, ![B, 1024]⟩ : Shape).Idx → EReal) (W : (⟨2, ![2048, 1024]⟩ : Shape).Idx → EReal)
    (b : (⟨1, ![1024]⟩ : Shape).Idx → EReal) (p : Fin B) (q : Fin 1024) : EReal :=
  (∑ k : Fin 1024, x (ix2 p k) * W (ix2 (n0 := 2048) (Fin.castAdd 1024 k) q))
    + (∑ k : Fin 1024, h (ix2 p k) * W (ix2 (n0 := 2048) (Fin.natAdd 1024 k) q)) + b (ix1 q)

/-- The new cell state from the forget, input and candidate pre-activations and the old cell state. -/
noncomputable def cellC (f i g c : EReal) : EReal := Ideal.logistic f * c + Ideal.logistic i * Ideal.tanh g

/-- The new hidden state from the output pre-activation and the new cell state. -/
noncomputable def cellH (o c' : EReal) : EReal := Ideal.logistic o * Ideal.tanh c'

section
variable {B : ℕ} (x h c : (⟨2, ![B, 1024]⟩ : Shape).Idx → EReal)
  (Wf Wi Wg Wo : (⟨2, ![2048, 1024]⟩ : Shape).Idx → EReal) (bf bi bg bo : (⟨1, ![1024]⟩ : Shape).Idx → EReal)

/-- The new cell state at row p, unit q. -/
noncomputable def cNext (p : Fin B) (q : Fin 1024) : EReal :=
  cellC (gate x h Wf bf p q) (gate x h Wi bi p q) (gate x h Wg bg p q) (c (ix2 p q))

/-- The new hidden state at row p, unit q. -/
noncomputable def hNext (p : Fin B) (q : Fin 1024) : EReal :=
  cellH (gate x h Wo bo p q) (cNext x h c Wf Wi Wg bf bi bg p q)

/-- The new cell state as an array. -/
noncomputable def CNext : (⟨2, ![B, 1024]⟩ : Shape).Idx → EReal := fun j => cNext x h c Wf Wi Wg bf bi bg (j 0) (j 1)

/-- The new hidden state as an array. -/
noncomputable def HNext : (⟨2, ![B, 1024]⟩ : Shape).Idx → EReal := fun j => hNext x h c Wf Wi Wg Wo bf bi bg bo (j 0) (j 1)

theorem CNext_ix2 (p : Fin B) (q : Fin 1024) : CNext x h c Wf Wi Wg bf bi bg (ix2 p q) = cNext x h c Wf Wi Wg bf bi bg p q := rfl

theorem HNext_ix2 (p : Fin B) (q : Fin 1024) : HNext x h c Wf Wi Wg Wo bf bi bg bo (ix2 p q) = hNext x h c Wf Wi Wg Wo bf bi bg bo p q := rfl
end

/-- A sum over 2048 positions is the sum over the first 1024 plus the sum over the last 1024. -/
theorem sum_split (f : Fin 2048 → EReal) :
    ∑ k : Fin 2048, f k = (∑ k : Fin 1024, f (Fin.castAdd 1024 k)) + ∑ k : Fin 1024, f (Fin.natAdd 1024 k) :=
  Fin.sum_univ_add (a := 1024) (b := 1024) f

/-- The word 0x3F800000 is the number one. -/
theorem one_f32 : Ideal.ofBits .f32 0x3F800000#32 = 1 := by
  simp [Ideal.ofBits, Ideal.ieee, -EReal.coe_mul]; norm_num

/-- The logistic function is the quotient the host spells: 1 / (1 + e^(-x)). -/
theorem logistic_eq (x : EReal) : Ideal.div 1 (1 + Ideal.exp (-x)) = Ideal.logistic x := rfl

end Cert.Lstm
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelPayload.lean ====
/-
  The values the LSTM cell's body stores, read at one entry.

  The body forms, for its block of 256 batch rows, the [256, 4096] array of the four gates' pre-activations side by
  side: the input block times the input weights, plus the hidden block times the hidden weights (each an exact sum
  over the 1024 contraction positions, accumulated from zero), plus the bias row repeated down the rows. Columns
  0..1023 are the forget gate, 1024..2047 the input gate, 2048..3071 the candidate, 3072..4095 the output gate.
  The new cell state at (p, q) is  σ f · c + σ i · tanh g  of the entries at columns q, 1024 + q, 2048 + q and the
  old cell state; the new hidden state is  σ o · tanh c'  of the entry at column 3072 + q and the new cell state.
-/
import proofs.«158399_j47596827574335_1_alg».proof.Proof.Gen.KernelIdeal.Skeleton
import proofs.«158399_j47596827574335_1_alg».proof.Proof.LstmSpec
import proofs.«158399_j47596827574335_1_alg».proof.Proof.LibPlainDot
import Idealize.ShloMosaic.Lib.Pipeline.Value
import Idealize.ShloMosaic.Lib.ValueLayout

namespace Cert.KernelIdeal.Pay

open Cert.KernelIdeal Cert.KernelIdeal.Gen Idealize.ShloMosaic Idealize.ShloMosaic.ValueIdx

/-- The gate pre-activation the body computes at row p of its block and column j of the 4096 joined gate columns. -/
noncomputable def bgate (x0 h0 : Vec Ideal S256x1024 .bf16) (wx wh : Vec Ideal S1024x4096 .bf16) (b : Vec Ideal S4096 .f32)
    (p : Fin 256) (j : Fin 4096) : EReal :=
  (∑ k : Fin 1024, x0 (ix2 p k) * wx (ix2 k j)) + (∑ k : Fin 1024, h0 (ix2 p k) * wh (ix2 k j)) + b (ix1 j)

/-- The body's product record is a plain matrix product. -/
theorem plain : Cert.PlainDot.Plain (a := 256) (k := 1024) (b := 4096) dot_S256x1024_S1024x4096_S256x4096_1_0_0_1_n_n :=
  ⟨rfl, rfl, rfl, rfl, rfl, rfl⟩

/-- A block times a weight matrix, accumulated from zero, at an entry: the sum over the 1024 contraction positions. -/
theorem mm_apply (l : FVec Ideal S256x1024 .bf16) (r : FVec Ideal S1024x4096 .bf16) (p : Fin 256) (j : Fin 4096) :
    matmul dot_S256x1024_S1024x4096_S256x4096_1_0_0_1_n_n none l r (constant (F := Ideal) S256x4096 .f32 0x00000000#32) (ix2 p j)
      = ∑ k : Fin 1024, l (ix2 p k) * r (ix2 k j) :=
  Cert.PlainDot.matmul_zero_apply (a := 256) (k := 1024) (b := 4096) plain rfl rfl none l r p j

/-- The bias row repeated down the 256 rows reads, at (p, j), the bias at j. -/
theorem bias_apply (b : FVec Ideal S4096 .f32) (p : Fin 256) (j : Fin 4096) :
    broadcastTo S256x4096 (shapeCast S1x4096 b shapeCasts_S4096_S1x4096) broadcasts_S1x4096_S256x4096 (ix2 p j) = b (ix1 j) := by
  refine (broadcastTo_apply _ _ (ix2 p j) (ix2 (0 : Fin 1) j) fun a => ?_).trans ?_
  · match a with
    | ⟨0, _⟩ => rfl
    | ⟨1, _⟩ => rfl
  · exact shapeCast_a_1a_apply b _ 0 j

/-- The pre-activation array at (p, j): the two exact sums and the bias. -/
theorem pay1_apply (x0 h0 : Vec Ideal S256x1024 .bf16) (wx wh : Vec Ideal S1024x4096 .bf16) (b : Vec Ideal S4096 .f32)
    (p : Fin 256) (j : Fin 4096) :
    k0_pay1 (F := Ideal) x0 h0 wx wh b (ix2 p j) = bgate x0 h0 wx wh b p j := by
  unfold k0_pay1 bgate
  simp only [shapeCast_self]
  refine congrArg₂ (· + ·) (congrArg₂ (· + ·) (mm_apply x0 wx p j) (mm_apply h0 wh p j)) (bias_apply b p j)

/-- A block of 1024 columns of a [256, 4096] array starting at column o reads, at (p, q), the array at (p, o + q). -/
theorem slice_apply (o : Nat) (h : S256x4096.Slices ![0, o] S256x1024) (v : FVec Ideal S256x4096 .f32) (p : Fin 256) (q : Fin 1024)
    (c : Fin 4096) (hc : c.val = o + q.val) :
    extractStridedSlice S256x1024 ![0, o] v h (ix2 p q) = v (ix2 p c) :=
  extractStridedSlice_apply _ v h (ix2 p q) (ix2 p c) fun a => match a with
    | ⟨0, _⟩ => (Nat.zero_add _).symm
    | ⟨1, _⟩ => hc

/-- The block of gate columns starting at column o, at (p, q): the pre-activation at column o + q. -/
theorem gate_slice (o : Nat) (h : S256x4096.Slices ![0, o] S256x1024) (x0 h0 : Vec Ideal S256x1024 .bf16)
    (wx wh : Vec Ideal S1024x4096 .bf16) (b : Vec Ideal S4096 .f32) (p : Fin 256) (q : Fin 1024) (c : Fin 4096) (hc : c.val = o + q.val) :
    extractStridedSlice S256x1024 ![0, o] (k0_pay1 (F := Ideal) x0 h0 wx wh b) h (ix2 p q) = bgate x0 h0 wx wh b p c :=
  (slice_apply o h _ p q c hc).trans (pay1_apply x0 h0 wx wh b p c)

/-- The stored new cell state at (p, q): σ f · c + σ i · tanh g of the pre-activations at columns q, 1024 + q, 2048 + q. -/
theorem pay2_apply (x0 h0 : Vec Ideal S256x1024 .bf16) (c0 : Vec Ideal S256x1024 .f32) (wx wh : Vec Ideal S1024x4096 .bf16)
    (b : Vec Ideal S4096 .f32) (p : Fin 256) (q : Fin 1024) :
    k0_pay2 (F := Ideal) x0 h0 c0 wx wh b (ix2 p q)
      = Cert.Lstm.cellC (bgate x0 h0 wx wh b p ⟨q.val, by omega⟩) (bgate x0 h0 wx wh b p ⟨1024 + q.val, by omega⟩)
          (bgate x0 h0 wx wh b p ⟨2048 + q.val, by omega⟩) (c0 (ix2 p q)) := by
  unfold k0_pay2 Cert.Lstm.cellC
  exact congrArg₂ (· + ·)
    (congrArg (fun t => Ideal.logistic t * c0 (ix2 p q)) (gate_slice 0 _ x0 h0 wx wh b p q _ (Nat.zero_add _).symm))
    (congrArg₂ (fun s t => Ideal.logistic s * Ideal.tanh t) (gate_slice 1024 _ x0 h0 wx wh b p q _ rfl)
      (gate_slice 2048 _ x0 h0 wx wh b p q _ rfl))

/-- The stored new hidden state at (p, q): σ o · tanh c' of the pre-activation at column 3072 + q and the new cell state. -/
theorem pay3_apply (x0 h0 : Vec Ideal S256x1024 .bf16) (c0 : Vec Ideal S256x1024 .f32) (wx wh : Vec Ideal S1024x4096 .bf16)
    (b : Vec Ideal S4096 .f32) (p : Fin 256) (q : Fin 1024) :
    k0_pay3 (F := Ideal) x0 h0 c0 wx wh b (ix2 p q)
      = Cert.Lstm.cellH (bgate x0 h0 wx wh b p ⟨3072 + q.val, by omega⟩) (k0_pay2 (F := Ideal) x0 h0 c0 wx wh b (ix2 p q)) := by
  unfold k0_pay3 Cert.Lstm.cellH
  exact congrArg (fun t => Ideal.logistic t * Ideal.tanh (k0_pay2 (F := Ideal) x0 h0 c0 wx wh b (ix2 p q)))
    (gate_slice 3072 _ x0 h0 wx wh b p q _ rfl)

end Cert.KernelIdeal.Pay
-- ==== Proof.KernelIdealEntryVal.lean ====
/-
  What the kernel launch finds in its operand arrays, index by index.

  The operations before the launch only cut, join and change the float format of the arguments. At extended reals a
  change of float format is the identity, so every entry of an operand array is an entry of an argument: the input
  and the hidden state are the arguments themselves; column `g * 1024 + q` of row `k` of the joined upper halves is
  gate `g`'s weight matrix at row `k`, column `q`, and of the joined lower halves at row `1024 + k`; entry
  `g * 1024 + q` of the joined biases is gate `g`'s bias at `q`.
-/
import proofs.«158399_j47596827574335_1_alg».proof.Proof.KernelIdealEntry
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.EntryVal

open Cert.KernelIdeal Cert.KernelIdeal.Gen Cert.KernelIdeal.Entry Idealize.ShloMosaic Idealize.ShloMosaic.TcCoe Idealize.ShloMosaic.ValueIdx Idealize.SL.Sem

/-! ## Cuts and joins read at an index, over any contents -/

section Layout
variable {α : Type}

/-- The upper 1024 rows of a [2048, 1024] matrix: entry `(k, q)` is the matrix's entry `(k, q)`. -/
theorem slice_upper (W : S2048x1024.Idx → α) (h : S2048x1024.Slices ![0, 0] S1024x1024) (k q : Fin 1024) :
    extractStridedSlice S1024x1024 ![0, 0] W h (ix2 k q) = W (ix2 (n0 := 2048) (Fin.castAdd 1024 k) q) :=
  extractStridedSlice_apply _ W h _ _ fun a => by
    match a with
    | ⟨0, _⟩ => exact (Nat.zero_add _).symm
    | ⟨1, _⟩ => exact (Nat.zero_add _).symm

/-- The lower 1024 rows of a [2048, 1024] matrix: entry `(k, q)` is the matrix's entry `(1024 + k, q)`. -/
theorem slice_lower (W : S2048x1024.Idx → α) (h : S2048x1024.Slices ![1024, 0] S1024x1024) (k q : Fin 1024) :
    extractStridedSlice S1024x1024 ![1024, 0] W h (ix2 k q) = W (ix2 (n0 := 2048) (Fin.natAdd 1024 k) q) :=
  extractStridedSlice_apply _ W h _ _ fun a => by
    match a with
    | ⟨0, _⟩ => rfl
    | ⟨1, _⟩ => exact (Nat.zero_add _).symm

end Layout

section Join
variable {α : Type}

/-- Four [1024, 1024] pieces joined side by side: column `q` of row `k` is the first piece at `(k, q)`. -/
theorem join_cols_0 (x0 x1 x2 x3 : S1024x1024.Idx → α)
    (h : Shape.Concatenates [S1024x1024, S1024x1024, S1024x1024, S1024x1024] S1024x4096 1) (k q : Fin 1024) (hq : q.val < 4096) :
    concatenate S1024x4096 1 [⟨S1024x1024, x0⟩, ⟨S1024x1024, x1⟩, ⟨S1024x1024, x2⟩, ⟨S1024x1024, x3⟩] h
      (ix2 (n1 := 4096) k ⟨q.val, hq⟩) = x0 (ix2 k q) :=
  concatenate_apply_piece (t := S1024x4096) 1 [⟨S1024x1024, x0⟩, ⟨S1024x1024, x1⟩, ⟨S1024x1024, x2⟩, ⟨S1024x1024, x3⟩] h
    (ix2 (n1 := 4096) k ⟨q.val, hq⟩) 0 (show (0 : Nat) < 4 by decide) S1024x1024 x0 rfl rfl 0 rfl (ix2 k q)
    (fun b hb => by match b with | ⟨0, _⟩ => rfl | ⟨1, _⟩ => exact absurd rfl hb)
    (Nat.zero_add _)

/-- … column `1024 + q` is the second piece at `(k, q)`. -/
theorem join_cols_1 (x0 x1 x2 x3 : S1024x1024.Idx → α)
    (h : Shape.Concatenates [S1024x1024, S1024x1024, S1024x1024, S1024x1024] S1024x4096 1) (k q : Fin 1024) (hq : 1024 + q.val < 4096) :
    concatenate S1024x4096 1 [⟨S1024x1024, x0⟩, ⟨S1024x1024, x1⟩, ⟨S1024x1024, x2⟩, ⟨S1024x1024, x3⟩] h
      (ix2 (n1 := 4096) k ⟨1024 + q.val, hq⟩) = x1 (ix2 k q) :=
  concatenate_apply_piece (t := S1024x4096) 1 [⟨S1024x1024, x0⟩, ⟨S1024x1024, x1⟩, ⟨S1024x1024, x2⟩, ⟨S1024x1024, x3⟩] h
    (ix2 (n1 := 4096) k ⟨1024 + q.val, hq⟩) 1 (show (1 : Nat) < 4 by decide) S1024x1024 x1 rfl rfl 1024 rfl (ix2 k q)
    (fun b hb => by match b with | ⟨0, _⟩ => rfl | ⟨1, _⟩ => exact absurd rfl hb)
    rfl

/-- … column `2048 + q` is the third piece at `(k, q)`. -/
theorem join_cols_2 (x0 x1 x2 x3 : S1024x1024.Idx → α)
    (h : Shape.Concatenates [S1024x1024, S1024x1024, S1024x1024, S1024x1024] S1024x4096 1) (k q : Fin 1024) (hq : 2048 + q.val < 4096) :
    concatenate S1024x4096 1 [⟨S1024x1024, x0⟩, ⟨S1024x1024, x1⟩, ⟨S1024x1024, x2⟩, ⟨S1024x1024, x3⟩] h
      (ix2 (n1 := 4096) k ⟨2048 + q.val, hq⟩) = x2 (ix2 k q) :=
  concatenate_apply_piece (t := S1024x4096) 1 [⟨S1024x1024, x0⟩, ⟨S1024x1024, x1⟩, ⟨S1024x1024, x2⟩, ⟨S1024x1024, x3⟩] h
    (ix2 (n1 := 4096) k ⟨2048 + q.val, hq⟩) 2 (show (2 : Nat) < 4 by decide) S1024x1024 x2 rfl rfl 2048 rfl (ix2 k q)
    (fun b hb => by match b with | ⟨0, _⟩ => rfl | ⟨1, _⟩ => exact absurd rfl hb)
    rfl

/-- … column `3072 + q` is the fourth piece at `(k, q)`. -/
theorem join_cols_3 (x0 x1 x2 x3 : S1024x1024.Idx → α)
    (h : Shape.Concatenates [S1024x1024, S1024x1024, S1024x1024, S1024x1024] S1024x4096 1) (k q : Fin 1024) (hq : 3072 + q.val < 4096) :
    concatenate S1024x4096 1 [⟨S1024x1024, x0⟩, ⟨S1024x1024, x1⟩, ⟨S1024x1024, x2⟩, ⟨S1024x1024, x3⟩] h
      (ix2 (n1 := 4096) k ⟨3072 + q.val, hq⟩) = x3 (ix2 k q) :=
  concatenate_apply_piece (t := S1024x4096) 1 [⟨S1024x1024, x0⟩, ⟨S1024x1024, x1⟩, ⟨S1024x1024, x2⟩, ⟨S1024x1024, x3⟩] h
    (ix2 (n1 := 4096) k ⟨3072 + q.val, hq⟩) 3 (show (3 : Nat) < 4 by decide) S1024x1024 x3 rfl rfl 3072 rfl (ix2 k q)
    (fun b hb => by match b with | ⟨0, _⟩ => rfl | ⟨1, _⟩ => exact absurd rfl hb)
    rfl

/-- Four vectors of 1024 joined end to end: entry `q` is the first vector at `q`. -/
theorem join_vec_0 (x0 x1 x2 x3 : S1024.Idx → α)
    (h : Shape.Concatenates [S1024, S1024, S1024, S1024] S4096 0) (q : Fin 1024) (hq : q.val < 4096) :
    concatenate S4096 0 [⟨S1024, x0⟩, ⟨S1024, x1⟩, ⟨S1024, x2⟩, ⟨S1024, x3⟩] h
      (ix1 (n := 4096) ⟨q.val, hq⟩) = x0 (ix1 q) :=
  concatenate_apply_piece (t := S4096) 0 [⟨S1024, x0⟩, ⟨S1024, x1⟩, ⟨S1024, x2⟩, ⟨S1024, x3⟩] h
    (ix1 (n := 4096) ⟨q.val, hq⟩) 0 (show (0 : Nat) < 4 by decide) S1024 x0 rfl rfl 0 rfl (ix1 q)
    (fun b hb => by match b with | ⟨0, _⟩ => exact absurd rfl hb)
    (Nat.zero_add _)

/-- … entry `1024 + q` is the second vector at `q`. -/
theorem join_vec_1 (x0 x1 x2 x3 : S1024.Idx → α)
    (h : Shape.Concatenates [S1024, S1024, S1024, S1024] S4096 0) (q : Fin 1024) (hq : 1024 + q.val < 4096) :
    concatenate S4096 0 [⟨S1024, x0⟩, ⟨S1024, x1⟩, ⟨S1024, x2⟩, ⟨S1024, x3⟩] h
      (ix1 (n := 4096) ⟨1024 + q.val, hq⟩) = x1 (ix1 q) :=
  concatenate_apply_piece (t := S4096) 0 [⟨S1024, x0⟩, ⟨S1024, x1⟩, ⟨S1024, x2⟩, ⟨S1024, x3⟩] h
    (ix1 (n := 4096) ⟨1024 + q.val, hq⟩) 1 (show (1 : Nat) < 4 by decide) S1024 x1 rfl rfl 1024 rfl (ix1 q)
    (fun b hb => by match b with | ⟨0, _⟩ => exact absurd rfl hb)
    rfl

/-- … entry `2048 + q` is the third vector at `q`. -/
theorem join_vec_2 (x0 x1 x2 x3 : S1024.Idx → α)
    (h : Shape.Concatenates [S1024, S1024, S1024, S1024] S4096 0) (q : Fin 1024) (hq : 2048 + q.val < 4096) :
    concatenate S4096 0 [⟨S1024, x0⟩, ⟨S1024, x1⟩, ⟨S1024, x2⟩, ⟨S1024, x3⟩] h
      (ix1 (n := 4096) ⟨2048 + q.val, hq⟩) = x2 (ix1 q) :=
  concatenate_apply_piece (t := S4096) 0 [⟨S1024, x0⟩, ⟨S1024, x1⟩, ⟨S1024, x2⟩, ⟨S1024, x3⟩] h
    (ix1 (n := 4096) ⟨2048 + q.val, hq⟩) 2 (show (2 : Nat) < 4 by decide) S1024 x2 rfl rfl 2048 rfl (ix1 q)
    (fun b hb => by match b with | ⟨0, _⟩ => exact absurd rfl hb)
    rfl

/-- … entry `3072 + q` is the fourth vector at `q`. -/
theorem join_vec_3 (x0 x1 x2 x3 : S1024.Idx → α)
    (h : Shape.Concatenates [S1024, S1024, S1024, S1024] S4096 0) (q : Fin 1024) (hq : 3072 + q.val < 4096) :
    concatenate S4096 0 [⟨S1024, x0⟩, ⟨S1024, x1⟩, ⟨S1024, x2⟩, ⟨S1024, x3⟩] h
      (ix1 (n := 4096) ⟨3072 + q.val, hq⟩) = x3 (ix1 q) :=
  concatenate_apply_piece (t := S4096) 0 [⟨S1024, x0⟩, ⟨S1024, x1⟩, ⟨S1024, x2⟩, ⟨S1024, x3⟩] h
    (ix1 (n := 4096) ⟨3072 + q.val, hq⟩) 3 (show (3 : Nat) < 4 by decide) S1024 x3 rfl rfl 3072 rfl (ix1 q)
    (fun b hb => by match b with | ⟨0, _⟩ => exact absurd rfl hb)
    rfl

end Join

/-! ## The operand arrays as the launch finds them -/

variable (m : (ℓ : Loc nD τ sig) → Buf (Elt Ideal) ℓ) (c : Dev nD)

/-- The launch's first operand is the input, entry for entry. -/
theorem entry_x (j : S4096x1024.Idx) : (V m c main_v13 j : EReal) = (m ((c : Thread nD τ).loc main_arg0) j : EReal) := by
  dsimp only [V]
  simp only [hostOps0, List.flatten_cons, List.flatten_nil, List.append_nil]
  after_results_simp <;> rfl

/-- Its second operand is the hidden state, entry for entry. -/
theorem entry_h (j : S4096x1024.Idx) : (V m c main_v14 j : EReal) = (m ((c : Thread nD τ).loc main_arg1) j : EReal) := by
  dsimp only [V]
  simp only [hostOps0, List.flatten_cons, List.flatten_nil, List.append_nil]
  after_results_simp <;> rfl

/-- Column `q` of row `k` of the joined upper halves is the first gate's matrix at row `k`, column `q`. -/
theorem entry_wx_f (k q : Fin 1024) :
    (V m c main_v9 (ix2 (n1 := 4096) k ⟨q.val, by have := q.isLt; omega⟩) : EReal)
      = (m ((c : Thread nD τ).loc main_arg3) (ix2 (n0 := 2048) (Fin.castAdd 1024 k) q) : EReal) := by
  dsimp only [V]
  simp only [hostOps0, List.flatten_cons, List.flatten_nil, List.append_nil]
  after_results_simp
  rw [truncf_apply]
  refine (join_cols_0 _ _ _ _ _ k q _).trans ?_
  simp only [Matrix.cons_val]
  after_results_simp
  exact slice_upper (m ((c : Thread nD τ).loc main_arg3)) slices_S2048x1024_S1024x1024_0_0 k q

/-- Column `1024 + q` of row `k` of the joined upper halves is the second gate's matrix at row `k`, column `q`. -/
theorem entry_wx_i (k q : Fin 1024) :
    (V m c main_v9 (ix2 (n1 := 4096) k ⟨1024 + q.val, by have := q.isLt; omega⟩) : EReal)
      = (m ((c : Thread nD τ).loc main_arg5) (ix2 (n0 := 2048) (Fin.castAdd 1024 k) q) : EReal) := by
  dsimp only [V]
  simp only [hostOps0, List.flatten_cons, List.flatten_nil, List.append_nil]
  after_results_simp
  rw [truncf_apply]
  refine (join_cols_1 _ _ _ _ _ k q _).trans ?_
  simp only [Matrix.cons_val]
  after_results_simp
  exact slice_upper (m ((c : Thread nD τ).loc main_arg5)) slices_S2048x1024_S1024x1024_0_0 k q

/-- Column `2048 + q` of row `k` of the joined upper halves is the third gate's matrix at row `k`, column `q`. -/
theorem entry_wx_g (k q : Fin 1024) :
    (V m c main_v9 (ix2 (n1 := 4096) k ⟨2048 + q.val, by have := q.isLt; omega⟩) : EReal)
      = (m ((c : Thread nD τ).loc main_arg7) (ix2 (n0 := 2048) (Fin.castAdd 1024 k) q) : EReal) := by
  dsimp only [V]
  simp only [hostOps0, List.flatten_cons, List.flatten_nil, List.append_nil]
  after_results_simp
  rw [truncf_apply]
  refine (join_cols_2 _ _ _ _ _ k q _).trans ?_
  simp only [Matrix.cons_val]
  after_results_simp
  exact slice_upper (m ((c : Thread nD τ).loc main_arg7)) slices_S2048x1024_S1024x1024_0_0 k q

/-- Column `3072 + q` of row `k` of the joined upper halves is the fourth gate's matrix at row `k`, column `q`. -/
theorem entry_wx_o (k q : Fin 1024) :
    (V m c main_v9 (ix2 (n1 := 4096) k ⟨3072 + q.val, by have := q.isLt; omega⟩) : EReal)
      = (m ((c : Thread nD τ).loc main_arg9) (ix2 (n0 := 2048) (Fin.castAdd 1024 k) q) : EReal) := by
  dsimp only [V]
  simp only [hostOps0, List.flatten_cons, List.flatten_nil, List.append_nil]
  after_results_simp
  rw [truncf_apply]
  refine (join_cols_3 _ _ _ _ _ k q _).trans ?_
  simp only [Matrix.cons_val]
  after_results_simp
  exact slice_upper (m ((c : Thread nD τ).loc main_arg9)) slices_S2048x1024_S1024x1024_0_0 k q

/-- Column `q` of row `k` of the joined lower halves is the first gate's matrix at row `1024 + k`, column `q`. -/
theorem entry_wh_f (k q : Fin 1024) :
    (V m c main_v11 (ix2 (n1 := 4096) k ⟨q.val, by have := q.isLt; omega⟩) : EReal)
      = (m ((c : Thread nD τ).loc main_arg3) (ix2 (n0 := 2048) (Fin.natAdd 1024 k) q) : EReal) := by
  dsimp only [V]
  simp only [hostOps0, List.flatten_cons, List.flatten_nil, List.append_nil]
  after_results_simp
  rw [truncf_apply]
  refine (join_cols_0 _ _ _ _ _ k q _).trans ?_
  simp only [Matrix.cons_val]
  after_results_simp
  exact slice_lower (m ((c : Thread nD τ).loc main_arg3)) slices_S2048x1024_S1024x1024_1024_0 k q

/-- Column `1024 + q` of row `k` of the joined lower halves is the second gate's matrix at row `1024 + k`, column `q`. -/
theorem entry_wh_i (k q : Fin 1024) :
    (V m c main_v11 (ix2 (n1 := 4096) k ⟨1024 + q.val, by have := q.isLt; omega⟩) : EReal)
      = (m ((c : Thread nD τ).loc main_arg5) (ix2 (n0 := 2048) (Fin.natAdd 1024 k) q) : EReal) := by
  dsimp only [V]
  simp only [hostOps0, List.flatten_cons, List.flatten_nil, List.append_nil]
  after_results_simp
  rw [truncf_apply]
  refine (join_cols_1 _ _ _ _ _ k q _).trans ?_
  simp only [Matrix.cons_val]
  after_results_simp
  exact slice_lower (m ((c : Thread nD τ).loc main_arg5)) slices_S2048x1024_S1024x1024_1024_0 k q

/-- Column `2048 + q` of row `k` of the joined lower halves is the third gate's matrix at row `1024 + k`, column `q`. -/
theorem entry_wh_g (k q : Fin 1024) :
    (V m c main_v11 (ix2 (n1 := 4096) k ⟨2048 + q.val, by have := q.isLt; omega⟩) : EReal)
      = (m ((c : Thread nD τ).loc main_arg7) (ix2 (n0 := 2048) (Fin.natAdd 1024 k) q) : EReal) := by
  dsimp only [V]
  simp only [hostOps0, List.flatten_cons, List.flatten_nil, List.append_nil]
  after_results_simp
  rw [truncf_apply]
  refine (join_cols_2 _ _ _ _ _ k q _).trans ?_
  simp only [Matrix.cons_val]
  after_results_simp
  exact slice_lower (m ((c : Thread nD τ).loc main_arg7)) slices_S2048x1024_S1024x1024_1024_0 k q

/-- Column `3072 + q` of row `k` of the joined lower halves is the fourth gate's matrix at row `1024 + k`, column `q`. -/
theorem entry_wh_o (k q : Fin 1024) :
    (V m c main_v11 (ix2 (n1 := 4096) k ⟨3072 + q.val, by have := q.isLt; omega⟩) : EReal)
      = (m ((c : Thread nD τ).loc main_arg9) (ix2 (n0 := 2048) (Fin.natAdd 1024 k) q) : EReal) := by
  dsimp only [V]
  simp only [hostOps0, List.flatten_cons, List.flatten_nil, List.append_nil]
  after_results_simp
  rw [truncf_apply]
  refine (join_cols_3 _ _ _ _ _ k q _).trans ?_
  simp only [Matrix.cons_val]
  after_results_simp
  exact slice_lower (m ((c : Thread nD τ).loc main_arg9)) slices_S2048x1024_S1024x1024_1024_0 k q

/-- Entry `q` of the joined biases is the first gate's bias at `q`. -/
theorem entry_b_f (q : Fin 1024) :
    (V m c main_v12 (ix1 (n := 4096) ⟨q.val, by have := q.isLt; omega⟩) : EReal)
      = (m ((c : Thread nD τ).loc main_arg4) (ix1 q) : EReal) := by
  dsimp only [V]
  simp only [hostOps0, List.flatten_cons, List.flatten_nil, List.append_nil]
  after_results_simp
  refine (join_vec_0 _ _ _ _ _ q _).trans ?_
  rfl

/-- Entry `1024 + q` of the joined biases is the second gate's bias at `q`. -/
theorem entry_b_i (q : Fin 1024) :
    (V m c main_v12 (ix1 (n := 4096) ⟨1024 + q.val, by have := q.isLt; omega⟩) : EReal)
      = (m ((c : Thread nD τ).loc main_arg6) (ix1 q) : EReal) := by
  dsimp only [V]
  simp only [hostOps0, List.flatten_cons, List.flatten_nil, List.append_nil]
  after_results_simp
  refine (join_vec_1 _ _ _ _ _ q _).trans ?_
  rfl

/-- Entry `2048 + q` of the joined biases is the third gate's bias at `q`. -/
theorem entry_b_g (q : Fin 1024) :
    (V m c main_v12 (ix1 (n := 4096) ⟨2048 + q.val, by have := q.isLt; omega⟩) : EReal)
      = (m ((c : Thread nD τ).loc main_arg8) (ix1 q) : EReal) := by
  dsimp only [V]
  simp only [hostOps0, List.flatten_cons, List.flatten_nil, List.append_nil]
  after_results_simp
  refine (join_vec_2 _ _ _ _ _ q _).trans ?_
  rfl

/-- Entry `3072 + q` of the joined biases is the fourth gate's bias at `q`. -/
theorem entry_b_o (q : Fin 1024) :
    (V m c main_v12 (ix1 (n := 4096) ⟨3072 + q.val, by have := q.isLt; omega⟩) : EReal)
      = (m ((c : Thread nD τ).loc main_arg10) (ix1 q) : EReal) := by
  dsimp only [V]
  simp only [hostOps0, List.flatten_cons, List.flatten_nil, List.append_nil]
  after_results_simp
  refine (join_vec_3 _ _ _ _ _ q _).trans ?_
  rfl

end Cert.KernelIdeal.EntryVal

end
-- ==== Proof.KernelIdealValue.lean ====
/-
  The program's two result arrays, as functions of its arguments.

  Grid point t works on batch rows 256 t .. 256 t + 255: its blocks of the input, of the hidden state and of the cell
  state are those rows of the arrays the launch finds, and the joined weight matrices and the joined bias are read
  whole. The launch finds the input and the hidden state equal to the arguments, column 1024 g + q of the joined
  upper (lower) halves equal to column q of gate g's matrix in its upper (lower) 1024 rows, and entry 1024 g + q of
  the joined bias equal to entry q of gate g's bias. So the gate pre-activation the body forms at row p, column
  1024 g + q of its block is the specification's gate g at batch row 256 t + p, unit q, and what the point writes
  back to each result array is that array's block of the specification's new hidden state, or new cell state. The
  sixteen blocks tile the 4096 rows, so each result array ends as the specification's whole array.
-/
import proofs.«158399_j47596827574335_1_alg».proof.Proof.KernelIdealFrame
import proofs.«158399_j47596827574335_1_alg».proof.Proof.KernelPayload
import proofs.«158399_j47596827574335_1_alg».proof.Proof.KernelIdealEntryVal
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Entry Cert.KernelIdeal.Frame Cert.KernelIdeal.EntryVal
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where a point's blocks lie -/

/-- The index maps over the sixteen grid points: the three batch-blocked inputs and the two outputs take row-block
    `t` at point `t`; the weights and the bias are one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem tlt (t : Fin cfg0.N) : t.val < 16 := by
  have h : t.val < grid0.N := t.isLt
  rw [N_0] at h; exact h

/-- Row `p` of block `t` is row `256 t + p` of the batch. -/
def grow (t : Fin cfg0.N) (p : Fin 256) : Fin 4096 := ⟨t.val * 256 + p.val, by have := tlt t; have := p.isLt; omega⟩

/-! ## The six input blocks, read at an entry -/

theorem blk_x (c : Dev nD) (t : Fin cfg0.N) (p : Fin 256) (k : Fin 1024) :
    (iblk m c 0 t (ix2 p k) : EReal) = (V m c main_v13 (ix2 (grow t p) k) : EReal) := by
  obtain ⟨e0, e1, -⟩ := idx_facts t
  unfold iblk
  show V m c main_v13 (((cfg0.win 0).blk t).view.emb (ix2 p k)) = V m c main_v13 (ix2 (grow t p) k)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem blk_h (c : Dev nD) (t : Fin cfg0.N) (p : Fin 256) (k : Fin 1024) :
    (iblk m c 1 t (ix2 p k) : EReal) = (V m c main_v14 (ix2 (grow t p) k) : EReal) := by
  obtain ⟨-, -, e0, e1, -⟩ := idx_facts t
  unfold iblk
  show V m c main_v14 (((cfg0.win 1).blk t).view.emb (ix2 p k)) = V m c main_v14 (ix2 (grow t p) k)
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem blk_c (c : Dev nD) (t : Fin cfg0.N) (p : Fin 256) (q : Fin 1024) :
    (iblk m c 2 t (ix2 p q) : EReal) = (V m c main_arg2 (ix2 (grow t p) q) : EReal) := by
  obtain ⟨-, -, -, -, e0, e1, -⟩ := idx_facts t
  unfold iblk
  show V m c main_arg2 (((cfg0.win 2).blk t).view.emb (ix2 p q)) = V m c main_arg2 (ix2 (grow t p) q)
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * q.val = q.val; omega

theorem blk_wx (c : Dev nD) (t : Fin cfg0.N) (k : Fin 1024) (j : Fin 4096) :
    (iblk m c 3 t (ix2 k j) : EReal) = (V m c main_v9 (ix2 k j) : EReal) := by
  obtain ⟨-, -, -, -, -, -, e0, e1, -⟩ := idx_facts t
  unfold iblk
  show V m c main_v9 (((cfg0.win 3).blk t).view.emb (ix2 k j)) = V m c main_v9 (ix2 k j)
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * j.val = j.val; omega

theorem blk_wh (c : Dev nD) (t : Fin cfg0.N) (k : Fin 1024) (j : Fin 4096) :
    (iblk m c 4 t (ix2 k j) : EReal) = (V m c main_v11 (ix2 k j) : EReal) := by
  obtain ⟨-, -, -, -, -, -, -, -, e0, e1, -⟩ := idx_facts t
  unfold iblk
  show V m c main_v11 (((cfg0.win 4).blk t).view.emb (ix2 k j)) = V m c main_v11 (ix2 k j)
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * j.val = j.val; omega

theorem blk_b (c : Dev nD) (t : Fin cfg0.N) (j : Fin 4096) :
    (iblk m c 5 t (ix1 j) : EReal) = (V m c main_v12 (ix1 j) : EReal) := by
  obtain ⟨-, -, -, -, -, -, -, -, -, -, e0, -⟩ := idx_facts t
  unfold iblk
  show V m c main_v12 (((cfg0.win 5).blk t).view.emb (ix1 j)) = V m c main_v12 (ix1 j)
  refine congrArg _ (funext fun a => Fin.ext ?_)
  match a with
  | ⟨0, _⟩ => show win0_5.index t (0 : Fin 1) * 4096 + 1 * j.val = j.val; omega

/-! ## The gates the body forms are the specification's -/

/-- A block-level pre-activation whose operands read the batch arrays at row `P` and a gate's matrix and bias at
    unit `q` is that gate at (`P`, `q`). -/
theorem bgate_eq_gate (x0 h0 : Vec Ideal S256x1024 .bf16) (wx wh : Vec Ideal S1024x4096 .bf16) (b : Vec Ideal S4096 .f32)
    (x h : (⟨2, ![4096, 1024]⟩ : Shape).Idx → EReal) (W : (⟨2, ![2048, 1024]⟩ : Shape).Idx → EReal) (bb : (⟨1, ![1024]⟩ : Shape).Idx → EReal)
    (p : Fin 256) (P : Fin 4096) (q : Fin 1024) (j : Fin 4096)
    (hx : ∀ k : Fin 1024, (x0 (ix2 p k) : EReal) = x (ix2 P k)) (hh : ∀ k : Fin 1024, (h0 (ix2 p k) : EReal) = h (ix2 P k))
    (hwx : ∀ k : Fin 1024, (wx (ix2 k j) : EReal) = W (ix2 (n0 := 2048) (Fin.castAdd 1024 k) q))
    (hwh : ∀ k : Fin 1024, (wh (ix2 k j) : EReal) = W (ix2 (n0 := 2048) (Fin.natAdd 1024 k) q))
    (hb : (b (ix1 j) : EReal) = bb (ix1 q)) :
    Pay.bgate x0 h0 wx wh b p j = Cert.Lstm.gate x h W bb P q := by
  unfold Pay.bgate Cert.Lstm.gate
  refine congrArg₂ (· + ·) (congrArg₂ (· + ·) (Finset.sum_congr rfl fun k _ => ?_) (Finset.sum_congr rfl fun k _ => ?_)) hb
  · exact congrArg₂ (· * ·) (hx k) (hwx k)
  · exact congrArg₂ (· * ·) (hh k) (hwh k)

theorem gate_f (c : Dev nD) (t : Fin cfg0.N) (p : Fin 256) (q : Fin 1024) :
    Pay.bgate (iblk m c 0 t) (iblk m c 1 t) (iblk m c 3 t) (iblk m c 4 t) (iblk m c 5 t) p ⟨q.val, by omega⟩
      = Cert.Lstm.gate (m ((c : Thread nD τ).loc main_arg0)) (m ((c : Thread nD τ).loc main_arg1)) (m ((c : Thread nD τ).loc main_arg3)) (m ((c : Thread nD τ).loc main_arg4)) (grow t p) q :=
  bgate_eq_gate (iblk m c 0 t) (iblk m c 1 t) (iblk m c 3 t) (iblk m c 4 t) (iblk m c 5 t) _ _ _ _ p (grow t p) q _
    (fun k => (blk_x m c t p k).trans (entry_x m c _)) (fun k => (blk_h m c t p k).trans (entry_h m c _))
    (fun k => (blk_wx m c t k _).trans (entry_wx_f m c k q)) (fun k => (blk_wh m c t k _).trans (entry_wh_f m c k q))
    ((blk_b m c t _).trans (entry_b_f m c q))

theorem gate_i (c : Dev nD) (t : Fin cfg0.N) (p : Fin 256) (q : Fin 1024) :
    Pay.bgate (iblk m c 0 t) (iblk m c 1 t) (iblk m c 3 t) (iblk m c 4 t) (iblk m c 5 t) p ⟨1024 + q.val, by omega⟩
      = Cert.Lstm.gate (m ((c : Thread nD τ).loc main_arg0)) (m ((c : Thread nD τ).loc main_arg1)) (m ((c : Thread nD τ).loc main_arg5)) (m ((c : Thread nD τ).loc main_arg6)) (grow t p) q :=
  bgate_eq_gate (iblk m c 0 t) (iblk m c 1 t) (iblk m c 3 t) (iblk m c 4 t) (iblk m c 5 t) _ _ _ _ p (grow t p) q _
    (fun k => (blk_x m c t p k).trans (entry_x m c _)) (fun k => (blk_h m c t p k).trans (entry_h m c _))
    (fun k => (blk_wx m c t k _).trans (entry_wx_i m c k q)) (fun k => (blk_wh m c t k _).trans (entry_wh_i m c k q))
    ((blk_b m c t _).trans (entry_b_i m c q))

theorem gate_g (c : Dev nD) (t : Fin cfg0.N) (p : Fin 256) (q : Fin 1024) :
    Pay.bgate (iblk m c 0 t) (iblk m c 1 t) (iblk m c 3 t) (iblk m c 4 t) (iblk m c 5 t) p ⟨2048 + q.val, by omega⟩
      = Cert.Lstm.gate (m ((c : Thread nD τ).loc main_arg0)) (m ((c : Thread nD τ).loc main_arg1)) (m ((c : Thread nD τ).loc main_arg7)) (m ((c : Thread nD τ).loc main_arg8)) (grow t p) q :=
  bgate_eq_gate (iblk m c 0 t) (iblk m c 1 t) (iblk m c 3 t) (iblk m c 4 t) (iblk m c 5 t) _ _ _ _ p (grow t p) q _
    (fun k => (blk_x m c t p k).trans (entry_x m c _)) (fun k => (blk_h m c t p k).trans (entry_h m c _))
    (fun k => (blk_wx m c t k _).trans (entry_wx_g m c k q)) (fun k => (blk_wh m c t k _).trans (entry_wh_g m c k q))
    ((blk_b m c t _).trans (entry_b_g m c q))

theorem gate_o (c : Dev nD) (t : Fin cfg0.N) (p : Fin 256) (q : Fin 1024) :
    Pay.bgate (iblk m c 0 t) (iblk m c 1 t) (iblk m c 3 t) (iblk m c 4 t) (iblk m c 5 t) p ⟨3072 + q.val, by omega⟩
      = Cert.Lstm.gate (m ((c : Thread nD τ).loc main_arg0)) (m ((c : Thread nD τ).loc main_arg1)) (m ((c : Thread nD τ).loc main_arg9)) (m ((c : Thread nD τ).loc main_arg10)) (grow t p) q :=
  bgate_eq_gate (iblk m c 0 t) (iblk m c 1 t) (iblk m c 3 t) (iblk m c 4 t) (iblk m c 5 t) _ _ _ _ p (grow t p) q _
    (fun k => (blk_x m c t p k).trans (entry_x m c _)) (fun k => (blk_h m c t p k).trans (entry_h m c _))
    (fun k => (blk_wx m c t k _).trans (entry_wx_o m c k q)) (fun k => (blk_wh m c t k _).trans (entry_wh_o m c k q))
    ((blk_b m c t _).trans (entry_b_o m c q))

theorem found_c (c : Dev nD) (t : Fin cfg0.N) (p : Fin 256) (q : Fin 1024) :
    (iblk m c 2 t (ix2 p q) : EReal) = (m ((c : Thread nD τ).loc main_arg2)) (ix2 (grow t p) q) :=
  (blk_c m c t p q).trans (congrFun (V_main_arg2 m c) _)

/-! ## The result arrays -/

/-- The new cell state of the arguments on core `c`. -/
abbrev Cfin (c : Dev nD) : (⟨2, ![4096, 1024]⟩ : Shape).Idx → EReal :=
  Cert.Lstm.CNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))

/-- The new hidden state of the arguments on core `c`. -/
abbrev Hfin (c : Dev nD) : (⟨2, ![4096, 1024]⟩ : Shape).Idx → EReal :=
  Cert.Lstm.HNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10))

theorem hz2 : (![0, 0] : Fin 2 → Nat) = fun _ => 0 := funext fun a => by fin_cases a <;> rfl
theorem hz1 : (![0] : Fin 1 → Nat) = fun _ => 0 := funext fun a => by fin_cases a; rfl

/-- The new cell state the body stores at (p, q) of its block at point `t` is the specification's at batch row 256 t + p. -/
theorem stored_c (c : Dev nD) (t : Fin cfg0.N) (p : Fin 256) (q : Fin 1024) :
    k0_pay2 (F := Ideal) (iblk m c 0 t) (iblk m c 1 t) (iblk m c 2 t) (iblk m c 3 t) (iblk m c 4 t) (iblk m c 5 t) (ix2 p q)
      = Cfin m c (ix2 (grow t p) q) := by
  refine (Pay.pay2_apply (iblk m c 0 t) (iblk m c 1 t) (iblk m c 2 t) (iblk m c 3 t) (iblk m c 4 t) (iblk m c 5 t) p q).trans ?_
  show _ = Cert.Lstm.cellC _ _ _ _
  exact congr (congr (congr (congrArg Cert.Lstm.cellC (gate_f m c t p q)) (gate_i m c t p q)) (gate_g m c t p q)) (found_c m c t p q)

/-- The same of the new hidden state. -/
theorem stored_h (c : Dev nD) (t : Fin cfg0.N) (p : Fin 256) (q : Fin 1024) :
    k0_pay3 (F := Ideal) (iblk m c 0 t) (iblk m c 1 t) (iblk m c 2 t) (iblk m c 3 t) (iblk m c 4 t) (iblk m c 5 t) (ix2 p q)
      = Hfin m c (ix2 (grow t p) q) := by
  refine (Pay.pay3_apply (iblk m c 0 t) (iblk m c 1 t) (iblk m c 2 t) (iblk m c 3 t) (iblk m c 4 t) (iblk m c 5 t) p q).trans ?_
  show _ = Cert.Lstm.cellH _ _
  exact congr (congrArg Cert.Lstm.cellH (gate_o m c t p q)) (stored_c m c t p q)

/-! ## What a point writes back -/

theorem flushed_c (c : Dev nD) (t : Fin cfg0.N) :
    (dats m 0 c).flushed 7 t = ((cfg0.win 7).blk t).view.read (Elt Ideal) (Cfin m c) := by
  show (cfg0.win 7).cut (grid0.coords t) ((dats m 0 c).after 7 t) = _
  rw [after7]
  unfold cOut
  rw [View.canon_unit_zero hz2]
  simp only [View.ld_unit_zero (S := S256x1024) hz2, View.ld_unit_zero (S := S1024x4096) hz2, View.ld_unit_zero (S := S4096) hz1]
  obtain ⟨-, -, -, -, -, -, -, -, -, -, -, -, -, e0, e1⟩ := idx_facts t
  funext j
  obtain ⟨p, q, rfl⟩ : ∃ (p : Fin 256) (q : Fin 1024), j = ix2 p q := ⟨j 0, j 1, eq_ix2 j⟩
  show k0_pay2 (F := Ideal) (iblk m c 0 t) (iblk m c 1 t) (iblk m c 2 t) (iblk m c 3 t) (iblk m c 4 t) (iblk m c 5 t) (ix2 p q)
    = Cfin m c (((cfg0.win 7).blk t).view.emb (ix2 p q))
  refine (stored_c m c t p q).trans (congrArg _ (funext fun a => Fin.ext ?_))
  match a with
  | ⟨0, _⟩ => show t.val * 256 + p.val = win0_7.index t (0 : Fin 2) * 256 + 1 * p.val; omega
  | ⟨1, _⟩ => show q.val = win0_7.index t (1 : Fin 2) * 1024 + 1 * q.val; omega

theorem flushed_h (c : Dev nD) (t : Fin cfg0.N) :
    (dats m 0 c).flushed 6 t = ((cfg0.win 6).blk t).view.read (Elt Ideal) (Hfin m c) := by
  show (cfg0.win 6).cut (grid0.coords t) ((dats m 0 c).after 6 t) = _
  rw [after6]
  unfold hOut
  rw [View.canon_unit_zero hz2]
  simp only [View.ld_unit_zero (S := S256x1024) hz2, View.ld_unit_zero (S := S1024x4096) hz2, View.ld_unit_zero (S := S4096) hz1]
  obtain ⟨-, -, -, -, -, -, -, -, -, -, -, e0, e1, -⟩ := idx_facts t
  funext j
  obtain ⟨p, q, rfl⟩ : ∃ (p : Fin 256) (q : Fin 1024), j = ix2 p q := ⟨j 0, j 1, eq_ix2 j⟩
  show k0_pay3 (F := Ideal) (iblk m c 0 t) (iblk m c 1 t) (iblk m c 2 t) (iblk m c 3 t) (iblk m c 4 t) (iblk m c 5 t) (ix2 p q)
    = Hfin m c (((cfg0.win 6).blk t).view.emb (ix2 p q))
  refine (stored_h m c t p q).trans (congrArg _ (funext fun a => Fin.ext ?_))
  match a with
  | ⟨0, _⟩ => show t.val * 256 + p.val = win0_6.index t (0 : Fin 2) * 256 + 1 * p.val; omega
  | ⟨1, _⟩ => show q.val = win0_6.index t (1 : Fin 2) * 1024 + 1 * q.val; omega

/-! ## The sixteen blocks tile the array -/

theorem mem_blk_c (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v15_1).slice (win0_7.rect t)).set ↔ _
  rw [View.set_slice_whole, Rect.mem_set_unit]
  exact Iff.rfl

theorem mem_blk_h (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v15_0).slice (win0_6.rect t)).set ↔ _
  rw [View.set_slice_whole, Rect.mem_set_unit]
  exact Iff.rfl

/-- The point whose block holds batch row r is r / 256. -/
def pointOf (i : S4096x1024.Idx) : Fin cfg0.N := ⟨(i 0).val / 256, by
  have h : (i 0).val < 4096 := (i 0).isLt
  show (i 0).val / 256 < grid0.N
  rw [N_0]; omega⟩

theorem cover_c (i : S4096x1024.Idx) : ∃ t : Fin cfg0.N, (cfg0.win 7).flush t = true ∧ i ∈ ((cfg0.win 7).blk t).view.set := by
  refine ⟨pointOf i, flush0_7 _, ?_⟩
  rw [mem_blk_c]
  obtain ⟨-, -, -, -, -, -, -, -, -, -, -, -, -, e0, e1⟩ := idx_facts (pointOf i)
  have h0 : (i 0).val < 4096 := (i 0).isLt
  have h1 : (i 1).val < 1024 := (i 1).isLt
  have hp : (pointOf i).val = (i 0).val / 256 := rfl
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega

theorem cover_h (i : S4096x1024.Idx) : ∃ t : Fin cfg0.N, (cfg0.win 6).flush t = true ∧ i ∈ ((cfg0.win 6).blk t).view.set := by
  refine ⟨pointOf i, flush0_6 _, ?_⟩
  rw [mem_blk_h]
  obtain ⟨-, -, -, -, -, -, -, -, -, -, -, e0, e1, -⟩ := idx_facts (pointOf i)
  have h0 : (i 0).val < 4096 := (i 0).isLt
  have h1 : (i 1).val < 1024 := (i 1).isLt
  have hp : (pointOf i).val = (i 0).val / 256 := rfl
  intro a
  match a with
  | ⟨0, _⟩ => show win0_6.index (pointOf i) (0 : Fin 2) * 256 ≤ (i 0).val ∧ (i 0).val < win0_6.index (pointOf i) (0 : Fin 2) * 256 + 256; omega
  | ⟨1, _⟩ => show win0_6.index (pointOf i) (1 : Fin 2) * 1024 ≤ (i 1).val ∧ (i 1).val < win0_6.index (pointOf i) (1 : Fin 2) * 1024 + 1024; omega

/-- The cell-state result array after the run. -/
theorem final_c (c : Dev nD) : (dats m 0 c).arrAt 7 cfg0.N = Cfin m c :=
  (dats m 0 c).arrAt_eq_of_cover 7 (Cfin m c) (fun t _ => flushed_c m c t) cover_c

/-- The hidden-state result array after the run. -/
theorem final_h (c : Dev nD) : (dats m 0 c).arrAt 6 cfg0.N = Hfin m c :=
  (dats m 0 c).arrAt_eq_of_cover 6 (Hfin m c) (fun t _ => flushed_h m c t) cover_h

/-! ## The run, read -/

/-- Every weakly fair execution terminates with the two result arrays at the specification's new hidden state and new
    cell state of the arguments, and the arguments unchanged. -/
theorem run : θ_run defs (onTc (τ := τ) (main (F := Ideal))) ⟨m, fun _ => 0, ρ⟩ fun r => ∀ c : Dev nD,
      r.2.mem ((c.tc : Thread nD τ).loc main_v15_0) = Hfin m c
      ∧ r.2.mem ((c.tc : Thread nD τ).loc main_v15_1) = Cfin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (final_h m c), ((h c).1 7).trans (final_c m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.RunValue

end
-- ==== Proof.RefIsLstm.lean ====
/-
  The reference program computes the LSTM cell of the specification.

  The reference joins the input row and the previous hidden row into one row of 2048 entries, joins the four gates'
  weight matrices side by side into a [2048, 4096] matrix and the four biases into one vector of 4096 entries, and
  takes ONE matrix product. At row p and column c = 1024 g + q the product is a sum over 2048 positions; its first
  1024 terms read x[p, k] · W_g[k, q], its last 1024 read h[p, k] · W_g[1024 + k, q], and the bias added is b_g[q].
  So the slice of columns [1024 g, 1024 g + 1024) is gate g's pre-activation. The reference spells the logistic
  function as 1 / (1 + e^(-t)) with the constant one written as the word 0x3F800000, which is the number one.
-/
import proofs.«158399_j47596827574335_1_alg».proof.Proof.Gen.ReferenceIdeal.Read
import proofs.«158399_j47596827574335_1_alg».proof.Proof.LstmSpec
import proofs.«158399_j47596827574335_1_alg».proof.Proof.LibPlainDot
import Idealize.ShloMosaic.Lib.Pipeline.Value
import Idealize.ShloMosaic.Lib.ValueIdx
import Idealize.ShloMosaic.PureOps.Ideal

namespace Cert.ReferenceIdeal.RefValue

open Cert.ReferenceIdeal Cert.ReferenceIdeal.Gen Cert.ReferenceIdeal.Read Idealize.ShloMosaic Idealize.ShloMosaic.ValueIdx

/-- The four gates' weight matrices, by gate number. -/
def W4 (x3 x5 x7 x9 : (⟨S2048x1024, .f32⟩ : BufTy).Contents (Elt Ideal)) : Fin 4 → (S2048x1024.Idx → Elt Ideal .f32) :=
  ![x3, x5, x7, x9]

/-- The four gates' biases, by gate number. -/
def b4 (x4 x6 x8 x10 : (⟨S1024, .f32⟩ : BufTy).Contents (Elt Ideal)) : Fin 4 → (S1024.Idx → Elt Ideal .f32) :=
  ![x4, x6, x8, x10]

/-- The joined weights at column c of row κ: gate c / 1024's matrix at column c % 1024. -/
theorem v1_at (x3 x5 x7 x9 : (⟨S2048x1024, .f32⟩ : BufTy).Contents (Elt Ideal)) (g : Fin 4) (κ : Fin 2048) (q : Fin 1024)
    (c : Fin 4096) (hg : c.val / 1024 = g.val) (hq : q.val = c.val % 1024) :
    val_main_v1 (F := Ideal) x3 x5 x7 x9 (ix2 κ c) = W4 x3 x5 x7 x9 g (ix2 κ q) := by
  unfold val_main_v1
  exact concatenate_ofFn_apply (t := S2048x4096) (s₁ := S2048x1024) 1 (W4 x3 x5 x7 x9)
    concatenates_S2048x1024_S2048x1024_S2048x1024_S2048x1024_S2048x4096_d1 rfl 1024 rfl (ix2 κ c) g hg (ix2 κ q) hq
    (fun b => match b with | ⟨0, _⟩ => fun _ => rfl | ⟨1, _⟩ => fun hb => absurd rfl hb)

/-- The joined biases at position c: gate c / 1024's bias at c % 1024. -/
theorem v2_at (x4 x6 x8 x10 : (⟨S1024, .f32⟩ : BufTy).Contents (Elt Ideal)) (g : Fin 4) (q : Fin 1024)
    (c : Fin 4096) (hg : c.val / 1024 = g.val) (hq : q.val = c.val % 1024) :
    val_main_v2 (F := Ideal) x4 x6 x8 x10 (ix1 c) = b4 x4 x6 x8 x10 g (ix1 q) := by
  unfold val_main_v2
  exact concatenate_ofFn_apply (t := S4096) (s₁ := S1024) 0 (b4 x4 x6 x8 x10)
    concatenates_S1024_S1024_S1024_S1024_S4096_d0 rfl 1024 rfl (ix1 c) g hg (ix1 q) hq
    (fun b => match b with | ⟨0, _⟩ => fun hb => absurd rfl hb)

/-- The joined row [x | h] on its first 1024 positions is x. -/
theorem v0_lo (x0 x1 : (⟨S4096x1024, .f32⟩ : BufTy).Contents (Elt Ideal)) (p : Fin 4096) (k : Fin 1024) :
    val_main_v0 (F := Ideal) x0 x1 (ix2 p (Fin.castAdd 1024 k)) = x0 (ix2 p k) := by
  unfold val_main_v0
  exact concatenate_pair_apply_left (t := S4096x2048) (s₁ := S4096x1024) (s₂ := S4096x1024) 1 x0 x1
    concatenates_S4096x1024_S4096x1024_S4096x2048_d1 (ix2 p (Fin.castAdd 1024 k)) rfl (ix2 p k)
    (fun b => match b with | ⟨0, _⟩ => rfl | ⟨1, _⟩ => rfl)

/-- The joined row [x | h] on its last 1024 positions is h. -/
theorem v0_hi (x0 x1 : (⟨S4096x1024, .f32⟩ : BufTy).Contents (Elt Ideal)) (p : Fin 4096) (k : Fin 1024) :
    val_main_v0 (F := Ideal) x0 x1 (ix2 p (Fin.natAdd 1024 k)) = x1 (ix2 p k) := by
  unfold val_main_v0
  exact concatenate_pair_apply_right (t := S4096x2048) (s₁ := S4096x1024) (s₂ := S4096x1024) 1 x0 x1
    concatenates_S4096x1024_S4096x1024_S4096x2048_d1 (ix2 p (Fin.natAdd 1024 k)) rfl rfl (ix2 p k)
    (fun b => match b with | ⟨0, _⟩ => fun _ => rfl | ⟨1, _⟩ => fun hb => absurd rfl hb)
    (by show k.val + 1024 = 1024 + k.val; omega)

/-- The pre-activation array at row p, column c is gate c / 1024's pre-activation at unit c % 1024. -/
theorem v6_at (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal))
    (g : Fin 4) (p : Fin 4096) (q : Fin 1024) (c : Fin 4096) (hg : c.val / 1024 = g.val) (hq : q.val = c.val % 1024) :
    val_main_v6 (F := Ideal) x0 x1 x3 x4 x5 x6 x7 x8 x9 x10 (ix2 p c)
      = Cert.Lstm.gate x0 x1 (W4 x3 x5 x7 x9 g) (b4 x4 x6 x8 x10 g) p q := by
  have e2 : idx_main_v4 (idx_main_v5 (ix2 p c)) = ix1 c := funext fun a => match a with | ⟨0, _⟩ => rfl
  have el : ∀ k : Fin 2048, lidx_main_v3 (ix2 p c) k = ix2 p k := fun k => funext fun a => match a with | ⟨0, _⟩ => rfl | ⟨1, _⟩ => rfl
  have er : ∀ k : Fin 2048, ridx_main_v3 (ix2 p c) k = ix2 k c := fun k => funext fun a => match a with | ⟨0, _⟩ => rfl | ⟨1, _⟩ => rfl
  rw [val_main_v6_apply, val_main_v3_apply, val_main_v5_apply, val_main_v4_apply, e2, v2_at x4 x6 x8 x10 g q c hg hq,
    Cert.Lstm.sum_split]
  unfold Cert.Lstm.gate
  refine congrArg₂ (· + ·) (congrArg₂ (· + ·) (Finset.sum_congr rfl fun k _ => ?_) (Finset.sum_congr rfl fun k _ => ?_)) rfl
  · rw [el, er, v0_lo, v1_at x3 x5 x7 x9 g _ q c hg hq]
  · rw [el, er, v0_hi, v1_at x3 x5 x7 x9 g _ q c hg hq]

/-- The forget gate's slice of the pre-activation array is that gate's pre-activation. -/
theorem v7_gate (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v7 (F := Ideal) x0 x1 x3 x4 x5 x6 x7 x8 x9 x10 (ix2 p q) = Cert.Lstm.gate x0 x1 x3 x4 p q := by
  have hc : q.val < 4096 := by have := q.isLt; omega
  have e : idx_main_v7 (ix2 p q) = ix2 p (⟨q.val, hc⟩ : Fin 4096) :=
    funext fun a => match a with | ⟨0, _⟩ => rfl | ⟨1, _⟩ => rfl
  rw [val_main_v7_apply, e]
  exact v6_at x0 x1 x3 x4 x5 x6 x7 x8 x9 x10 0 p q ⟨q.val, hc⟩ (Nat.div_eq_of_lt q.isLt) (Nat.mod_eq_of_lt q.isLt).symm

/-- The input gate's slice of the pre-activation array is that gate's pre-activation. -/
theorem v8_gate (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v8 (F := Ideal) x0 x1 x3 x4 x5 x6 x7 x8 x9 x10 (ix2 p q) = Cert.Lstm.gate x0 x1 x5 x6 p q := by
  have hc : 1024 + q.val < 4096 := by have := q.isLt; omega
  have e : idx_main_v8 (ix2 p q) = ix2 p (⟨1024 + q.val, hc⟩ : Fin 4096) :=
    funext fun a => match a with | ⟨0, _⟩ => rfl | ⟨1, _⟩ => rfl
  rw [val_main_v8_apply, e]
  exact v6_at x0 x1 x3 x4 x5 x6 x7 x8 x9 x10 1 p q ⟨1024 + q.val, hc⟩ (by have := q.isLt; show (1024 + q.val) / 1024 = 1; omega) (by have := q.isLt; show q.val = (1024 + q.val) % 1024; omega)

/-- The candidate gate's slice of the pre-activation array is that gate's pre-activation. -/
theorem v9_gate (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v9 (F := Ideal) x0 x1 x3 x4 x5 x6 x7 x8 x9 x10 (ix2 p q) = Cert.Lstm.gate x0 x1 x7 x8 p q := by
  have hc : 2048 + q.val < 4096 := by have := q.isLt; omega
  have e : idx_main_v9 (ix2 p q) = ix2 p (⟨2048 + q.val, hc⟩ : Fin 4096) :=
    funext fun a => match a with | ⟨0, _⟩ => rfl | ⟨1, _⟩ => rfl
  rw [val_main_v9_apply, e]
  exact v6_at x0 x1 x3 x4 x5 x6 x7 x8 x9 x10 2 p q ⟨2048 + q.val, hc⟩ (by have := q.isLt; show (2048 + q.val) / 1024 = 2; omega) (by have := q.isLt; show q.val = (2048 + q.val) % 1024; omega)

/-- The output gate's slice of the pre-activation array is that gate's pre-activation. -/
theorem v10_gate (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v10 (F := Ideal) x0 x1 x3 x4 x5 x6 x7 x8 x9 x10 (ix2 p q) = Cert.Lstm.gate x0 x1 x9 x10 p q := by
  have hc : 3072 + q.val < 4096 := by have := q.isLt; omega
  have e : idx_main_v10 (ix2 p q) = ix2 p (⟨3072 + q.val, hc⟩ : Fin 4096) :=
    funext fun a => match a with | ⟨0, _⟩ => rfl | ⟨1, _⟩ => rfl
  rw [val_main_v10_apply, e]
  exact v6_at x0 x1 x3 x4 x5 x6 x7 x8 x9 x10 3 p q ⟨3072 + q.val, hc⟩ (by have := q.isLt; show (3072 + q.val) / 1024 = 3; omega) (by have := q.isLt; show q.val = (3072 + q.val) % 1024; omega)

/-- The quotient 1 / (1 + e^(-·)) of the forget gate's slice is the logistic function of that gate's pre-activation. -/
theorem v16_logistic (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v16 (F := Ideal) x0 x1 x3 x4 x5 x6 x7 x8 x9 x10 (ix2 p q) = Ideal.logistic (Cert.Lstm.gate x0 x1 x3 x4 p q) := by
  rw [val_main_v16_apply, val_main_v15_apply, val_main_cst_0_apply, val_main_v14_apply, val_main_v13_apply,
    val_main_cst_apply, val_main_v12_apply, val_main_v11_apply, v7_gate]
  simp only [Ideal.hostDivf_def, Ideal.ofBits_def, Ideal.addf_def, Ideal.hostUnary_exp_def, Ideal.hostNegf_def, Ideal.negf_def,
    Cert.Lstm.one_f32]
  exact Cert.Lstm.logistic_eq _

/-- The quotient 1 / (1 + e^(-·)) of the input gate's slice is the logistic function of that gate's pre-activation. -/
theorem v22_logistic (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v22 (F := Ideal) x0 x1 x3 x4 x5 x6 x7 x8 x9 x10 (ix2 p q) = Ideal.logistic (Cert.Lstm.gate x0 x1 x5 x6 p q) := by
  rw [val_main_v22_apply, val_main_v21_apply, val_main_cst_2_apply, val_main_v20_apply, val_main_v19_apply,
    val_main_cst_1_apply, val_main_v18_apply, val_main_v17_apply, v8_gate]
  simp only [Ideal.hostDivf_def, Ideal.ofBits_def, Ideal.addf_def, Ideal.hostUnary_exp_def, Ideal.hostNegf_def, Ideal.negf_def,
    Cert.Lstm.one_f32]
  exact Cert.Lstm.logistic_eq _

/-- The quotient 1 / (1 + e^(-·)) of the output gate's slice is the logistic function of that gate's pre-activation. -/
theorem v29_logistic (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v29 (F := Ideal) x0 x1 x3 x4 x5 x6 x7 x8 x9 x10 (ix2 p q) = Ideal.logistic (Cert.Lstm.gate x0 x1 x9 x10 p q) := by
  rw [val_main_v29_apply, val_main_v28_apply, val_main_cst_4_apply, val_main_v27_apply, val_main_v26_apply,
    val_main_cst_3_apply, val_main_v25_apply, val_main_v24_apply, v10_gate]
  simp only [Ideal.hostDivf_def, Ideal.ofBits_def, Ideal.addf_def, Ideal.hostUnary_exp_def, Ideal.hostNegf_def, Ideal.negf_def,
    Cert.Lstm.one_f32]
  exact Cert.Lstm.logistic_eq _

/-- The hyperbolic tangent of the candidate gate's slice. -/
theorem v23_tanh (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v23 (F := Ideal) x0 x1 x3 x4 x5 x6 x7 x8 x9 x10 (ix2 p q) = Ideal.tanh (Cert.Lstm.gate x0 x1 x7 x8 p q) := by
  rw [val_main_v23_apply, v9_gate]
  exact Ideal.hostUnary_tanh_def _

/-- The new cell state the reference computes, at row p and unit q. -/
theorem v32_at (x0 x1 x2 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v32 (F := Ideal) x0 x1 x2 x3 x4 x5 x6 x7 x8 x9 x10 (ix2 p q) = Cert.Lstm.cNext x0 x1 x2 x3 x5 x7 x4 x6 x8 p q := by
  rw [val_main_v32_apply, val_main_v30_apply, val_main_v31_apply, v16_logistic, v22_logistic, v23_tanh]
  rfl

/-- The reference's new cell state is the specification's. -/
theorem ref_c (x0 x1 x2 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v32 (F := Ideal) x0 x1 x2 x3 x4 x5 x6 x7 x8 x9 x10 = Cert.Lstm.CNext x0 x1 x2 x3 x5 x7 x4 x6 x8 := by
  funext j
  obtain ⟨p, q, rfl⟩ : ∃ (p : Fin 4096) (q : Fin 1024), j = ix2 p q := ⟨j 0, j 1, eq_ix2 j⟩
  rw [Cert.Lstm.CNext_ix2]
  exact v32_at x0 x1 x2 x3 x4 x5 x6 x7 x8 x9 x10 p q

/-- The reference's new hidden state is the specification's. -/
theorem ref_h (x0 x1 x2 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v34 (F := Ideal) x0 x1 x2 x3 x4 x5 x6 x7 x8 x9 x10 = Cert.Lstm.HNext x0 x1 x2 x3 x5 x7 x9 x4 x6 x8 x10 := by
  funext j
  obtain ⟨p, q, rfl⟩ : ∃ (p : Fin 4096) (q : Fin 1024), j = ix2 p q := ⟨j 0, j 1, eq_ix2 j⟩
  rw [Cert.Lstm.HNext_ix2, val_main_v34_apply, val_main_v33_apply, v29_logistic, v32_at]
  rfl

end Cert.ReferenceIdeal.RefValue
-- ==== Proof.lean ====
/-
  An LSTM cell step, as a tiled kernel and as plain array code, computes the same new hidden state and new cell
  state over the extended reals.

  The kernel cuts each gate's [2048, 1024] weight matrix into the 1024 rows that meet the input and the 1024 rows that
  meet the previous hidden state, joins the four gates' halves side by side, and for each block of 256 batch rows
  forms  x · Wx + h · Wh + b  (two exact products accumulated from zero), applies the logistic function and tanh to
  the four column ranges, and combines them with the old cell state. The reference joins [x | h] and the four whole
  matrices and takes ONE product over 2048 positions. A sum over 2048 positions is the sum over the first 1024 plus
  the sum over the last 1024, the logistic function is 1 / (1 + e^(-x)) in both spellings, and a change of float
  format is the identity on the extended reals: the two programs end with equal arrays. Neither side moves a factor
  across a sum, so the finiteness of the inputs is not used.

  The three frames: the kernel's two (at the word level and at the ideal values) from its body's triple through the
  pipeline's launch, the reference's from its run. The idealization rewrote nothing, so there is nothing to
  preserve.
-/
import proofs.«158399_j47596827574335_1_alg».proof.Defs
import proofs.«158399_j47596827574335_1_alg».proof.Proof.Gen.Kernel
import proofs.«158399_j47596827574335_1_alg».proof.Proof.Gen.KernelIdeal
import proofs.«158399_j47596827574335_1_alg».proof.Proof.Gen.ReferenceIdeal
import proofs.«158399_j47596827574335_1_alg».proof.Proof.Gen.Pre_finite_inputs
import proofs.«158399_j47596827574335_1_alg».proof.Proof.Gen.ReferenceIdeal.Run
import proofs.«158399_j47596827574335_1_alg».proof.Proof.Gen.ReferenceIdeal.Read
import proofs.«158399_j47596827574335_1_alg».proof.Proof.KernelFrame
import proofs.«158399_j47596827574335_1_alg».proof.Proof.KernelIdealFrame
import proofs.«158399_j47596827574335_1_alg».proof.Proof.KernelIdealValue
import proofs.«158399_j47596827574335_1_alg».proof.Proof.RefIsLstm
import Idealize.ShloMosaic.Adequacy
import Idealize.ShloMosaic.Init

noncomputable section

namespace Cert.Proof

open Idealize.ShloMosaic Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's new hidden state and new cell state of the arguments they agree on. -/
theorem algebraic : Cert.algebraic_KernelIdeal_ReferenceIdeal := by
  intro m ρ m' ρ' _ hagree
  refine ⟨fun c => Cert.KernelIdeal.RunValue.Hfin m c, fun c => Cert.KernelIdeal.RunValue.Cfin m c,
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v34_eq, Cert.ReferenceIdeal.RefValue.ref_h, a0, a1, a2, a3, a4, a5, a6, a7, a8, a9, a10]
  · obtain ⟨a0, a1, a2, a3, a4, a5, a6, a7, a8, a9, a10⟩ := hagree c
    rw [Cert.ReferenceIdeal.Read.val_main_v32_eq, Cert.ReferenceIdeal.RefValue.ref_c, a0, a1, a2, a3, a4, a5, a6, a7, a8]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves, Cert.Proof.algebraic⟩

end
